-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S5x5 : Shape := ⟨2, ![5, 5]⟩
abbrev S5 : Shape := ⟨1, ![5]⟩
abbrev S_ : Shape := ⟨0, ![]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_

variable [Facts]

def fn {F : FTy → Type} [FloatOps F] (main_arg0 : FVec F S4194304x5 .f32) (main_arg1 : FVec F S5x5 .f32) (main_arg2 : FVec F S5 .f32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_v4 : FVec F S5x5 .f32 := Host.absf main_arg1
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  main_v13
-- ==== Kernel.lean ====
abbrev S4194304x5 : Shape := ⟨2, ![4194304, 5]⟩
abbrev S5x5 : Shape := ⟨2, ![5, 5]⟩
abbrev S5 : Shape := ⟨1, ![5]⟩
abbrev S1x5 : Shape := ⟨2, ![1, 5]⟩
abbrev S16384x5 : Shape := ⟨2, ![16384, 5]⟩

abbrev nBuf : Space → Nat
  | .hbm => 5
  | .vmem => 6
  | .smem => 0
  | _ => 0

abbrev bufTy : (tb : Table) → Fin (tcTables nBuf tb) → BufTy
  | .hbm, ⟨0, _⟩ => ⟨S4194304x5, .f32⟩
  | .hbm, ⟨1, _⟩ => ⟨S5x5, .f32⟩
  | .hbm, ⟨2, _⟩ => ⟨S5, .f32⟩
  | .hbm, ⟨3, _⟩ => ⟨S1x5, .f32⟩
  | .hbm, ⟨4, _⟩ => ⟨S4194304x5, .f32⟩
  | .local _ .vmem, ⟨0, _⟩ => ⟨S16384x5, .f32⟩
  | .local _ .vmem, ⟨1, _⟩ => ⟨S16384x5, .f32⟩
  | .local _ .vmem, ⟨2, _⟩ => ⟨S5x5, .f32⟩
  | .local _ .vmem, ⟨3, _⟩ => ⟨S1x5, .f32⟩
  | .local _ .vmem, ⟨4, _⟩ => ⟨S16384x5, .f32⟩
  | .local _ .vmem, ⟨5, _⟩ => ⟨S16384x5, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S5_S1x5 : S5.ShapeCasts S1x5
  inb_S16384x5_S16384x5_0_0 : ∀ a, (![0, 0] : Fin 2 → Nat) a + S16384x5.size a ≤ S16384x5.size a
  h_S16384x5 : 0 < S16384x5.numel
  inb_S5x5_S5x5_0_0 : ∀ a, (![0, 0] : Fin 2 → Nat) a + S5x5.size a ≤ S5x5.size a
  h_S5x5 : 0 < S5x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S16384x5 : S1x5.Broadcasts S16384x5
  dot_S16384x5_S5x5_S16384x5_1_1_0_0_n_n_wf : DotDims.WF S16384x5 S5x5 S16384x5 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x5.size a ≤ S4194304x5.size a
  hwx0_0 : ∀ i : grid0.Coords, EltTy.bits .f32 = 32 ∨ (Rect.block (s := S4194304x5) S16384x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x5.size a ≤ S5x5.size a
  hwx0_1 : ∀ i : grid0.Coords, EltTy.bits .f32 = 32 ∨ (Rect.block (s := S5x5) S5x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x5.size a ≤ S4194304x5.size a
  hwx0_3 : ∀ i : grid0.Coords, EltTy.bits .f32 = 32 ∨ (Rect.block (s := S4194304x5) S16384x5.size (cc0_transform_3 i) (hinb0_3 i)).WholeWords (EltTy.packing .f32)

variable [Facts₀]

def dot_S16384x5_S5x5_S16384x5_1_1_0_0_n_n : DotDims S16384x5 S5x5 S16384x5 where
  lhsContracting := [1]
  rhsContracting := [1]
  lhsNonContracting := [0]
  rhsNonContracting := [0]
  lhsBatch := []
  rhsBatch := []
  wf := dot_S16384x5_S5x5_S16384x5_1_1_0_0_n_n_wf

abbrev win0_0 : Pipeline.Window sig grid0 :=
  Pipeline.Window.ofSpec (Memref.whole main_arg0) S16384x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16384x5.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x5 : Shape := ⟨2, ![4194304, 5]⟩
abbrev S5x5 : Shape := ⟨2, ![5, 5]⟩
abbrev S5 : Shape := ⟨1, ![5]⟩
abbrev S1x5 : Shape := ⟨2, ![1, 5]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4194304x5, .f32⟩
  | .hbm, ⟨1, _⟩ => ⟨S5x5, .f32⟩
  | .hbm, ⟨2, _⟩ => ⟨S5, .f32⟩
  | .hbm, ⟨3, _⟩ => ⟨S5x5, .f32⟩
  | .hbm, ⟨4, _⟩ => ⟨S4194304x5, .f32⟩
  | .hbm, ⟨5, _⟩ => ⟨S1x5, .f32⟩
  | .hbm, ⟨6, _⟩ => ⟨S4194304x5, .f32⟩
  | .hbm, ⟨7, _⟩ => ⟨S4194304x5, .f32⟩
  | .hbm, ⟨8, _⟩ => ⟨S4194304x5, .f32⟩
  | .hbm, ⟨9, _⟩ => ⟨S_, .f32⟩
  | .hbm, ⟨10, _⟩ => ⟨S4194304x5, .f32⟩
  | .hbm, ⟨11, _⟩ => ⟨S4194304x5, .f32⟩
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  transposes_S5x5_S5x5_1_0 : S5x5.Transposes [1, 0] S5x5
  bcast_S5_S1x5_1 : S5.BroadcastsInDim S1x5 (![1] : Fin 1 → Fin S1x5.rank)
  bcast_S1x5_S4194304x5_0_1 : S1x5.BroadcastsInDim S4194304x5 (![0, 1] : Fin 2 → Fin S4194304x5.rank)
  bcast_S_S4194304x5 : S_.BroadcastsInDim S4194304x5 (![] : Fin 0 → Fin S4194304x5.rank)
  dot_S4194304x5_S5x5_S4194304x5_1_0_0_1_n_n_wf : DotDims.WF S4194304x5 S5x5 S4194304x5 [1] [0] [0] [1] [] []

variable [Facts₀]

def dot_S4194304x5_S5x5_S4194304x5_1_0_0_1_n_n : DotDims S4194304x5 S5x5 S4194304x5 where
  lhsContracting := [1]
  rhsContracting := [0]
  lhsNonContracting := [0]
  rhsNonContracting := [1]
  lhsBatch := []
  rhsBatch := []
  wf := dot_S4194304x5_S5x5_S4194304x5_1_0_0_1_n_n_wf

class Facts : Prop extends Facts₀ where

variable [Facts]
-- ==== Proof.ClosedForm.lean ====
/-
  The closed form both programs compute, as one function of the three argument arrays.

  Each row of `x` is sent through an affine map and then through the explicit solution of a separable quadratic
  program: with `h(p, q) = ∑ k, x(p, k) · W(q, k) + b(q)` (row `p` of `x` against row `q` of `W`, plus the bias),
  the result at `(p, q)` is `max (-h(p, q)) c` for the one float constant `c` both programs carry as the same
  binary word (the word of -1000).  Floats are extended reals here, and nothing below evaluates that word.
-/
import Idealize.ShloMosaic.PureOps.Ideal
import Idealize.ShloMosaic.Lib.ValueIdx

noncomputable section

namespace ClosedForm

open Idealize.ShloMosaic Idealize.ShloMosaic.ValueIdx

/-- The lower bound of the solution: the constant's binary word read as an extended real. -/
abbrev floor : EReal := Ideal.ofBits .f32 0xC47A0000#32

/-- The affine map at row `p` and output feature `q`: row `p` of `x` against row `q` of `W`, plus `b q`.
    The number of rows is a parameter: a block of rows and the whole array are read by the same formula. -/
def affine {B : Nat} (x : (⟨2, ![B, 5]⟩ : Shape).Idx → EReal) (W : (⟨2, ![5, 5]⟩ : Shape).Idx → EReal)
    (b : Fin 5 → EReal) (p : Fin B) (q : Fin 5) : EReal :=
  (∑ k : Fin 5, x (ix2 p k) * W (ix2 q k)) + b q

/-- The solution at `(p, q)`: the negated affine value, bounded below by the constant. -/
def solve {B : Nat} (x : (⟨2, ![B, 5]⟩ : Shape).Idx → EReal) (W : (⟨2, ![5, 5]⟩ : Shape).Idx → EReal)
    (b : Fin 5 → EReal) : (⟨2, ![B, 5]⟩ : Shape).Idx → EReal :=
  fun i => max (-(affine x W b (i 0) (i 1))) floor

theorem solve_ix2 {B : Nat} (x : (⟨2, ![B, 5]⟩ : Shape).Idx → EReal) (W : (⟨2, ![5, 5]⟩ : Shape).Idx → EReal)
    (b : Fin 5 → EReal) (p : Fin B) (q : Fin 5) :
    solve x W b (ix2 p q) = max (-((∑ k : Fin 5, x (ix2 p k) * W (ix2 q k)) + b q)) floor := rfl

/-- The solution at `(p, q)` depends on `x` only through row `p`, on `W` only through row `q` and on `b` only
    through its entry `q`: if row `p` of `x` is row `p'` of `x'` and the other two agree there, the two solutions
    agree.  This is what lets a block of rows be solved by itself, from the block and its own copies of `W`
    and `b`. -/
theorem solve_congr_row {B B' : Nat} (x : (⟨2, ![B, 5]⟩ : Shape).Idx → EReal) (x' : (⟨2, ![B', 5]⟩ : Shape).Idx → EReal)
    (W W' : (⟨2, ![5, 5]⟩ : Shape).Idx → EReal) (b b' : Fin 5 → EReal) (p : Fin B) (p' : Fin B') (q : Fin 5)
    (hx : ∀ k : Fin 5, x (ix2 p k) = x' (ix2 p' k)) (hW : ∀ k : Fin 5, W (ix2 q k) = W' (ix2 q k)) (hb : b q = b' q) :
    solve x W b (ix2 p q) = solve x' W' b' (ix2 p' q) := by
  rw [solve_ix2, solve_ix2]
  simp only [hx, hW, hb]

end ClosedForm

end
-- ==== Proof.LibDotLastAxes.lean ====
/-
  A matrix product whose two operands are both contracted on their LAST axis, as a plain sum.

  For a [R, K] array against a [C, K] array with no batch axis, entry (p, q) of the product is the inner product
  of row p of the left operand with row q of the right operand.  The contraction is stated over the dimension
  record's own index type; here its sum at the result index (p, q) is carried to the plain sum over k < K of
  l(p, k) * r(q, k), at abstract extents and for any dimension record of that arrangement, so that one lemma
  serves every such product whatever its sizes.

  The operands' indices are read one axis at a time.  On the left, axis 0 is the only non-contracting axis and
  no batch axis precedes it, so it reads the result index at position 0 + 0; axis 1 is the only contracting
  axis and reads the contraction index's single coordinate.  On the right, axis 0 is the only non-contracting
  axis: it comes after no batch axis and after the left operand's one non-contracting axis, so it reads the
  result index at position 0 + 1 + 0; axis 1 is the only contracting axis.  The contraction's index type has one
  axis of extent K, hence is in bijection with the numbers below K, and the sum is carried along that bijection.
  The left operand's two facts do not depend on the right operand's shape and are stated for any.
-/
import Idealize.ShloMosaic.PureOps.Dims
import Idealize.ShloMosaic.Lib.ValueIdx

namespace DotLastAxes

open Idealize.ShloMosaic Idealize.ShloMosaic.ValueIdx

variable {R K C : Nat}

/-- A coordinate of an index is determined by the axis' number, however that number is spelt. -/
theorem coord_val_of_eq {s : Shape} (j : s.Idx) {a b : Nat} (ha : a < s.rank) (hb : b < s.rank) (h : a = b) :
    (j ⟨a, ha⟩).val = (j ⟨b, hb⟩).val := by
  subst h; rfl

/-- Left operand, axis 0: the first result coordinate (the row), whatever the right operand's shape. -/
theorem left_row {sr : Shape} (d : DotDims ⟨2, ![R, K]⟩ sr ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_of_eq j _ _ (by simp [hlb, hln])

/-- Right operand, axis 0: the second result coordinate (the column of the result is a ROW of the right operand). -/
theorem right_row (d : DotDims ⟨2, ![R, K]⟩ ⟨2, ![C, K]⟩ ⟨2, ![R, C]⟩)
    (hrb : d.rhsBatch = []) (hrn : d.rhsNonContracting = [0])
    (hlb : d.lhsBatch = []) (hln : d.lhsNonContracting = [0])
    (j : (⟨2, ![R, C]⟩ : Shape).Idx) (k : d.contr.Idx) :
    (d.rhsIdx j k (0 : Fin 2)).val = (j (1 : Fin 2)).val := by
  have hb : ¬ (0 : Fin 2) ∈ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_of_eq j _ _ (by simp [hlb, hln, hrn])

/-- The left operand's index at result index `(p, q)` and contraction position `k` is `(p, k)`. -/
theorem lhsIdx_eq (d : DotDims ⟨2, ![R, K]⟩ ⟨2, ![C, K]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact left_row d hlb hln (ix2 p q) _
  | ⟨1, _⟩ => exact (d.lhsIdx_val_of_single hlc (ix2 p q) _).trans (contrEquiv1_symm_val d K hr hs k)

/-- The right operand's index at result index `(p, q)` and contraction position `k` is `(q, k)`. -/
theorem rhsIdx_eq (d : DotDims ⟨2, ![R, K]⟩ ⟨2, ![C, K]⟩ ⟨2, ![R, C]⟩)
    (hrb : d.rhsBatch = []) (hrn : d.rhsNonContracting = [0]) (hrc : d.rhsContracting = [1])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 q k := by
  funext a
  apply Fin.ext
  match a with
  | ⟨0, _⟩ => exact right_row d hrb hrn hlb hln (ix2 p q) _
  | ⟨1, _⟩ => exact (d.rhsIdx_val_of_single hrc (ix2 p q) _).trans (contrEquiv1_symm_val d K hr hs k)

/-- The contraction sum at `(p, q)` is `∑ k < K, l (p, k) * r (q, k)`: row `p` of the left operand against row
    `q` of the right operand. -/
theorem sum_eq {M : Type} [AddCommMonoid M] [Mul M] (d : DotDims ⟨2, ![R, K]⟩ ⟨2, ![C, K]⟩ ⟨2, ![R, C]⟩)
    (hlb : d.lhsBatch = []) (hln : d.lhsNonContracting = [0]) (hlc : d.lhsContracting = [1])
    (hrb : d.rhsBatch = []) (hrn : d.rhsNonContracting = [0]) (hrc : d.rhsContracting = [1])
    (l : (⟨2, ![R, K]⟩ : Shape).Idx → M) (r : (⟨2, ![C, K]⟩ : Shape).Idx → M) (p : Fin R) (q : Fin C) :
    ∑ k : d.contr.Idx, l (d.lhsIdx (ix2 p q) k) * r (d.rhsIdx (ix2 p q) k) = ∑ k : Fin K, l (ix2 p k) * r (ix2 q k) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end DotLastAxes
-- ==== Proof.BlockPayload.lean ====
/-
  What the kernel body computes from one grid point's blocks, read at an index.

  The body loads a block of 16384 rows of `x`, the whole 5 × 5 matrix `W` and the bias as one row of 5, forms the
  matrix product of the block with `W` contracted on both operands' last axis into a zero accumulator, adds the
  bias row to every row, subtracts the result from zero and bounds it below by the constant.  At row `r` and
  feature `q` of the block this is the closed form `ClosedForm.solve` of the block itself: the product is the
  plain sum `∑ k, x(r, k) · W(q, k)` (the contraction re-indexed), the broadcast bias row reads its entry
  `(0, q)`, and on the extended reals `0 - h = -h` for every `h`, infinite ones included.
-/
import proofs.«136735_j54219667144895_1_alg».proof.Proof.Gen.KernelIdeal.Skeleton
import proofs.«136735_j54219667144895_1_alg».proof.Proof.ClosedForm
import proofs.«136735_j54219667144895_1_alg».proof.Proof.LibDotLastAxes
import Idealize.ShloMosaic.PureOps.Ideal.Laws
import Idealize.ShloMosaic.Lib.Pipeline.Value
import Idealize.ShloMosaic.Lib.ValueIdx

noncomputable section

namespace Cert.KernelIdeal.BlockPayload

open Cert.KernelIdeal Cert.KernelIdeal.Gen Idealize.ShloMosaic Idealize.ShloMosaic.ValueIdx

/-- The product of a block of rows with `W`, both contracted on their last axis, into the zero accumulator: entry
    `(r, q)` is row `r` of the block against row `q` of `W`. -/
theorem product_rows (x0 : Vec Ideal S16384x5 .f32) (x1 : Vec Ideal S5x5 .f32) (r : Fin 16384) (q : Fin 5) :
    matmul (F := Ideal) (φ₁ := .f32) (φ₂ := .f32) dot_S16384x5_S5x5_S16384x5_1_1_0_0_n_n none x0 x1 (constant S16384x5 .f32 0x00000000#32) (ix2 r q)
      = ∑ k : Fin 5, x0 (ix2 r k) * x1 (ix2 q k) :=
  (Ideal.matmul_constant_zero_apply dot_S16384x5_S5x5_S16384x5_1_1_0_0_n_n none x0 x1 (ix2 r q)).trans
    (DotLastAxes.sum_eq dot_S16384x5_S5x5_S16384x5_1_1_0_0_n_n rfl rfl rfl rfl rfl rfl x0 x1 r q)

/-- The bias row, cast to its own shape and broadcast over the rows of the block, reads its entry `(0, q)` at
    every row. -/
theorem bias_rows (x2 : Vec Ideal S1x5 .f32) (r : Fin 16384) (q : Fin 5) :
    broadcastTo S16384x5 (shapeCast S1x5 x2 Facts₀.shapeCasts_S1x5_S1x5) Facts₀.broadcasts_S1x5_S16384x5 (ix2 r q)
      = x2 (ix2 (0 : Fin 1) q) := by
  rw [shapeCast_self]
  refine broadcastTo_apply x2 Facts₀.broadcasts_S1x5_S16384x5 (ix2 r q) (ix2 (0 : Fin 1) q) (fun a => ?_)
  match a with
  | ⟨0, _⟩ => show (0 : Nat) = if (1 : Nat) = 1 then 0 else _; rw [if_pos rfl]
  | ⟨1, _⟩ => show q.val = if (5 : Nat) = 1 then 0 else _; rw [if_neg (by decide)]; rfl

/-- The body's stored value at row `r`, feature `q` of the block is the closed form of the block's own rows, with
    the bias read off its row. -/
theorem payload_at (x0 : Vec Ideal S16384x5 .f32) (x1 : Vec Ideal S5x5 .f32) (x2 : Vec Ideal S1x5 .f32)
    (r : Fin 16384) (q : Fin 5) :
    k0_pay1 (F := Ideal) x0 x1 x2 (ix2 r q) = ClosedForm.solve x0 x1 (fun q' => x2 (ix2 (0 : Fin 1) q')) (ix2 r q) := by
  rw [ClosedForm.solve_ix2]
  unfold k0_pay1
  show max (Ideal.ofBits .f32 0x00000000#32
      - (matmul (F := Ideal) (φ₁ := .f32) (φ₂ := .f32) dot_S16384x5_S5x5_S16384x5_1_1_0_0_n_n none x0 x1 (constant S16384x5 .f32 0x00000000#32) (ix2 r q)
        + broadcastTo S16384x5 (shapeCast S1x5 x2 Facts₀.shapeCasts_S1x5_S1x5) Facts₀.broadcasts_S1x5_S16384x5 (ix2 r q)))
      (Ideal.ofBits .f32 0xC47A0000#32) = _
  rw [product_rows, bias_rows, Ideal.ofBits_zero_f32, sub_eq_add_neg, zero_add]

end Cert.KernelIdeal.BlockPayload

end
-- ==== Proof.KernelClosedForm.lean ====
/-
  The kernel's output array after the run is the closed form of the argument arrays.

  The grid has 256 points; point `t` stages rows `16384 · t … 16384 · t + 16383` of `x`, the whole of `W`, and the
  bias as the one row a host reshape made of it, and writes back the same rows of the output.  What it writes
  back is the closed form of its own block (the payload read at an index), and the closed form at row `p` reads
  `x` only at row `p`, so the block written at point `t` is block `t` of the closed form of the whole arrays.
  Every row lies in exactly the block of the point `p / 16384`, so the blocks cover the output and the array
  ends at the closed form everywhere.
-/
import proofs.«136735_j54219667144895_1_alg».proof.Proof.Gen.KernelIdeal.Value
import proofs.«136735_j54219667144895_1_alg».proof.Proof.BlockPayload
import Idealize.ShloMosaic.Lib.Pipeline.Value
import Idealize.ShloMosaic.Lib.StableHlo.Run

noncomputable section

namespace Cert.KernelIdeal.ClosedValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays as the region finds them -/

/-- The bias as the region finds it is the one-row reshape of the bias argument: its entry `(0, q)` is `b q`. -/
theorem bias_row (c : Dev nD) (q : Fin 5) :
    V m c main_v0 (ix2 (0 : Fin 1) q) = m ((c : Thread nD τ).loc main_arg2) (ix1 q) := by
  have e : (V m c main_v0 : S1x5.Idx → EReal)
      = shapeCast S1x5 (m ((c : Thread nD τ).loc main_arg2)) Facts₀.shapeCasts_S5_S1x5 := by
    dsimp only [V, hostOps0]; after_results; rfl
  rw [e]
  refine shapeCast_apply _ Facts₀.shapeCasts_S5_S1x5 (ix2 (0 : Fin 1) q) (ix1 q) ?_
  rw [Shape.rowMajor_val_one, Shape.rowMajor_val_two]
  show q.val = 0 * 5 + q.val
  omega

/-- The closed form of the arrays as the region finds them. -/
def regionSolve (c : Dev nD) : S4194304x5.Idx → EReal :=
  ClosedForm.solve (B := 4194304) (V m c main_arg0) (V m c main_arg1) (fun q => V m c main_v0 (ix2 (0 : Fin 1) q))

/-- It is the closed form of the three argument arrays: no host operation before the region writes `x` or `W`,
    and the bias row is the bias. -/
theorem regionSolve_eq (c : Dev nD) :
    regionSolve m c = ClosedForm.solve (B := 4194304) (m ((c : Thread nD τ).loc main_arg0)) (m ((c : Thread nD τ).loc main_arg1))
      (fun q => m ((c : Thread nD τ).loc main_arg2) (ix1 q)) := by
  unfold regionSolve
  rw [V_main_arg0, V_main_arg1]
  exact congrArg (ClosedForm.solve (B := 4194304) _ _) (funext fun q => bias_row m c q)

/-! ## The blocks -/

/-- The printed index maps, decided over the 256 points: the `x` window and the output window sit at block row
    `t`, block column 0; the `W` and bias windows at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of point `t`'s block is row `16384 · t + r` of the array. -/
abbrev arrayRow (t : Fin cfg0.N) (r : Fin 16384) : Fin 4194304 :=
  ⟨t.val * 16384 + r.val, by have ht : t.val < 256 := lt_of_lt_of_eq t.isLt N_0; have hr := r.isLt; omega⟩

/-- Entry `(r, k)` of the `x` block at point `t` is entry `(16384 · t + r, k)` of `x`. -/
theorem x_block (c : Dev nD) (t : Fin cfg0.N) (r : Fin 16384) (k : Fin 5) :
    iblk m c 0 t (ix2 r k) = V m c main_arg0 (ix2 (arrayRow t r) k) := by
  obtain ⟨e0, e1, -, -, -, -, -, -⟩ := index_facts t
  show V m c main_arg0 (((cfg0.win 0).blk t).view.emb (ix2 r k)) = V m c main_arg0 (ix2 (arrayRow t r) k)
  refine congrArg (V m c main_arg0) (funext fun a => Fin.ext ?_)
  match a with
  | ⟨0, _⟩ => show win0_0.index t (0 : Fin 2) * 16384 + 1 * r.val = t.val * 16384 + r.val; omega
  | ⟨1, _⟩ => show win0_0.index t (1 : Fin 2) * 5 + 1 * k.val = k.val; omega

/-- The `W` block at any point is `W`. -/
theorem w_block (c : Dev nD) (t : Fin cfg0.N) (q k : Fin 5) :
    iblk m c 1 t (ix2 q k) = V m c main_arg1 (ix2 q k) := by
  obtain ⟨-, -, e2, e3, -, -, -, -⟩ := index_facts t
  show V m c main_arg1 (((cfg0.win 1).blk t).view.emb (ix2 q k)) = V m c main_arg1 (ix2 q k)
  refine congrArg (V m c main_arg1) (funext fun a => Fin.ext ?_)
  match a with
  | ⟨0, _⟩ => show win0_1.index t (0 : Fin 2) * 5 + 1 * q.val = q.val; omega
  | ⟨1, _⟩ => show win0_1.index t (1 : Fin 2) * 5 + 1 * k.val = k.val; omega

/-- The bias block at any point is the bias row. -/
theorem b_block (c : Dev nD) (t : Fin cfg0.N) (q : Fin 5) :
    iblk m c 2 t (ix2 (0 : Fin 1) q) = V m c main_v0 (ix2 (0 : Fin 1) q) := by
  obtain ⟨-, -, -, -, e4, e5, -, -⟩ := index_facts t
  show V m c main_v0 (((cfg0.win 2).blk t).view.emb (ix2 (0 : Fin 1) q)) = V m c main_v0 (ix2 (0 : Fin 1) q)
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 5 + 1 * q.val = q.val; omega

/-- Entry `(r, q)` of the output block at point `t` sits at `(16384 · t + r, q)` in the output array. -/
theorem out_block (t : Fin cfg0.N) (r : Fin 16384) (q : Fin 5) :
    ((cfg0.win 3).blk t).view.emb (ix2 r q) = ix2 (arrayRow t r) q := by
  obtain ⟨-, -, -, -, -, -, e6, e7⟩ := index_facts t
  refine funext fun a => Fin.ext ?_
  match a with
  | ⟨0, _⟩ => show win0_3.index t (0 : Fin 2) * 16384 + 1 * r.val = t.val * 16384 + r.val; omega
  | ⟨1, _⟩ => show win0_3.index t (1 : Fin 2) * 5 + 1 * q.val = q.val; omega

/-- WHAT POINT `t` WRITES BACK is block `t` of the closed form of the arrays as the region finds them. -/
theorem flushed_eq (c : Dev nD) (t : Fin cfg0.N) :
    (dats m 0 c).flushed 3 t = ((cfg0.win 3).blk t).view.read (Elt Ideal) (regionSolve m c) := by
  rw [Value.flushed3]
  unfold out0_3
  rw [View.canon_unit_zero zero_offsets]
  simp only [View.ld_unit_zero (S := S16384x5) zero_offsets, View.ld_unit_zero (S := S5x5) zero_offsets,
    View.ld_unit_zero (S := S1x5) zero_offsets]
  funext j
  obtain ⟨r, q, rfl⟩ : ∃ (r : Fin 16384) (q : Fin 5), j = ix2 r q := ⟨j 0, j 1, eq_ix2 j⟩
  show k0_pay1 (F := Ideal) (iblk m c 0 t) (iblk m c 1 t) (iblk m c 2 t) (ix2 r q)
    = regionSolve m c (((cfg0.win 3).blk t).view.emb (ix2 r q))
  refine (BlockPayload.payload_at (iblk m c 0 t) (iblk m c 1 t) (iblk m c 2 t) r q).trans ?_
  refine Eq.trans ?_ (congrArg (regionSolve m c) (out_block t r q)).symm
  exact ClosedForm.solve_congr_row _ _ _ _ _ _ r (arrayRow t r) q (fun k => x_block m c t r k)
    (fun k => w_block m c t q k) (b_block m c t q)

/-! ## The cover -/

/-- An index of the output is in point `t`'s block iff each coordinate is in the block's range on its axis. -/
theorem mem_block (t : Fin cfg0.N) (i : S4194304x5.Idx) :
    i ∈ ((cfg0.win 3).blk t).view.set ↔ ∀ a : Fin 2, win0_3.index t a * S16384x5.size a ≤ (i a).val
      ∧ (i a).val < win0_3.index t a * S16384x5.size a + S16384x5.size a := by
  show i ∈ ((View.whole main_v1).slice (win0_3.rect t)).set ↔ _
  rw [View.set_slice_whole, Rect.mem_set_unit]
  exact Iff.rfl

/-- Every index of the output is in the block of the point its row falls in. -/
theorem covered (i : S4194304x5.Idx) :
    ∃ t : Fin cfg0.N, (cfg0.win 3).flush t = true ∧ i ∈ ((cfg0.win 3).blk t).view.set := by
  have h0 : (i 0).val < 4194304 := (i 0).isLt
  have h1 : (i 1).val < 5 := (i 1).isLt
  have ht : (i 0).val / 16384 < cfg0.N := lt_of_lt_of_eq (by omega : (i 0).val / 16384 < 256) N_0.symm
  refine ⟨⟨(i 0).val / 16384, ht⟩, flush0_3 _, ?_⟩
  rw [mem_block]
  obtain ⟨-, -, -, -, -, -, e6, e7⟩ := index_facts ⟨(i 0).val / 16384, ht⟩
  intro a
  match a with
  | ⟨0, _⟩ =>
    show win0_3.index ⟨(i 0).val / 16384, ht⟩ (0 : Fin 2) * 16384 ≤ (i 0).val
      ∧ (i 0).val < win0_3.index ⟨(i 0).val / 16384, ht⟩ (0 : Fin 2) * 16384 + 16384
    rw [e6]; show (i 0).val / 16384 * 16384 ≤ (i 0).val ∧ (i 0).val < (i 0).val / 16384 * 16384 + 16384; omega
  | ⟨1, _⟩ =>
    show win0_3.index ⟨(i 0).val / 16384, ht⟩ (1 : Fin 2) * 5 ≤ (i 1).val
      ∧ (i 1).val < win0_3.index ⟨(i 0).val / 16384, ht⟩ (1 : Fin 2) * 5 + 5
    omega

/-! ## The array, and the run -/

/-- THE OUTPUT ARRAY after the run is the closed form of the three argument arrays. -/
theorem final (c : Dev nD) :
    (dats m 0 c).arrAt 3 cfg0.N = ClosedForm.solve (B := 4194304) (m ((c : Thread nD τ).loc main_arg0))
      (m ((c : Thread nD τ).loc main_arg1)) (fun q => m ((c : Thread nD τ).loc main_arg2) (ix1 q)) :=
  ((dats m 0 c).arrAt_eq_of_cover 3 (regionSolve m c) (fun t _ => flushed_eq m c t) covered).trans (regionSolve_eq m c)

/-- Every weakly fair execution of the kernel program terminates with the output at the closed form of the
    arguments and the arguments unchanged. -/
theorem run : θ_run defs (onTc (τ := τ) (main (F := Ideal))) ⟨m, fun _ => 0, ρ⟩ fun r => ∀ c : Dev nD,
      r.2.mem ((c : Thread nD τ).loc main_v1) = ClosedForm.solve (B := 4194304) (m ((c : Thread nD τ).loc main_arg0))
        (m ((c : Thread nD τ).loc main_arg1)) (fun q => m ((c : Thread nD τ).loc main_arg2) (ix1 q))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ClosedValue

end
-- ==== Proof.ReferenceClosedForm.lean ====
/-
  The reference computes the closed form.

  The reference transposes `W`, multiplies `x` by the transpose (contracting `x`'s last axis with the transpose's
  first), adds the bias broadcast over the rows, negates, and takes the maximum with the broadcast constant.  Read
  at an index `(p, q)`, one operation at a time: the product is `∑ k, x(p, k) · Wᵀ(k, q)` and `Wᵀ(k, q) = W(q, k)`,
  the twice-broadcast bias reads `b q`, and the broadcast constant reads its word.  That is `ClosedForm.solve`
  term for term, so beyond identifying the composed index functions nothing is left to compute.
-/
import proofs.«136735_j54219667144895_1_alg».proof.Proof.Gen.ReferenceIdeal.Read
import proofs.«136735_j54219667144895_1_alg».proof.Proof.ClosedForm

noncomputable section

namespace Cert.ReferenceIdeal.ClosedValue

open Cert.ReferenceIdeal Cert.ReferenceIdeal.Gen Cert.ReferenceIdeal.Read Idealize.ShloMosaic Idealize.ShloMosaic.ValueIdx

/-- The left factor of the product at `(p, q)` and position `k` is read at `(p, k)`. -/
theorem left_index (i : S4194304x5.Idx) (k : Fin 5) : lidx_main_v1 i k = ix2 (i 0) k :=
  funext fun a => by match a with | ⟨0, _⟩ => rfl | ⟨1, _⟩ => rfl

/-- The right factor is the transpose read at `(k, q)`, which is `W` read at `(q, k)`. -/
theorem right_index (i : S4194304x5.Idx) (k : Fin 5) : idx_main_v0 (ridx_main_v1 i k) = ix2 (i 1) k :=
  funext fun a => by match a with | ⟨0, _⟩ => rfl | ⟨1, _⟩ => rfl

/-- The bias, broadcast to one row and then to every row, is read at its entry `q`. -/
theorem bias_index (i : S4194304x5.Idx) : idx_main_v2 (idx_main_v3 i) = ix1 (i 1) :=
  funext fun a => by match a with | ⟨0, _⟩ => rfl

/-- The reference's result is the closed form of its three arguments. -/
theorem result_eq (x0 : (⟨S4194304x5, .f32⟩ : BufTy).Contents (Elt Ideal)) (x1 : (⟨S5x5, .f32⟩ : BufTy).Contents (Elt Ideal))
    (x2 : (⟨S5, .f32⟩ : BufTy).Contents (Elt Ideal)) :
    val_main_v7 (F := Ideal) x0 x1 x2 = ClosedForm.solve (B := 4194304) x0 x1 (fun q => x2 (ix1 q)) := by
  funext i
  rw [val_main_v7_apply, val_main_v5_apply, val_main_v4_apply, val_main_v1_apply, val_main_v3_apply, val_main_v2_apply,
    val_main_v6_apply, val_main_cst_apply]
  simp only [val_main_v0_apply, left_index, right_index, bias_index]
  rfl

end Cert.ReferenceIdeal.ClosedValue

end
-- ==== Proof.lean ====
/-
  The kernel and its reference compute the same function of `x : [4194304, 5]`, `W : [5, 5]` and `b : [5]` over the
  extended reals: with `h(p, q) = ∑ k, x(p, k) · W(q, k) + b(q)`, the result at `(p, q)` is `max (-h(p, q)) c`, where
  `c` is the float constant -1000, carried by both programs as the same binary word (`ClosedForm.solve`).

  The kernel walks the rows of `x` in 256 blocks of 16384; at each block it multiplies the block by `W` with both
  operands contracted on their last axis (so no transpose is ever formed), adds the bias row, subtracts from zero and
  bounds below by the constant; each block of the output is the closed form of that block, and the blocks cover the
  output (`KernelIdeal.ClosedValue.run`).  The reference forms the transpose of `W`, multiplies, adds the broadcast
  bias, negates and bounds below; read at an index this is the same closed form, since the transpose at `(k, q)` is
  `W` at `(q, k)` (`ReferenceIdeal.ClosedValue.result_eq`).  The only algebra between the two sides is that
  `0 - h = -h` on the extended reals, which holds for every `h`; the finiteness of the inputs is never used.

  The three frames are the generated ones (the reference's is its generated run with the result dropped), and the
  idealization rewrote nothing, so there is nothing to preserve.
-/
import proofs.«136735_j54219667144895_1_alg».proof.Defs
import proofs.«136735_j54219667144895_1_alg».proof.Proof.Gen.Kernel
import proofs.«136735_j54219667144895_1_alg».proof.Proof.Gen.Kernel.Skeleton
import proofs.«136735_j54219667144895_1_alg».proof.Proof.Gen.Kernel.Launch
import proofs.«136735_j54219667144895_1_alg».proof.Proof.Gen.Kernel.Points
import proofs.«136735_j54219667144895_1_alg».proof.Proof.Gen.Kernel.Frame
import proofs.«136735_j54219667144895_1_alg».proof.Proof.Gen.KernelIdeal
import proofs.«136735_j54219667144895_1_alg».proof.Proof.Gen.KernelIdeal.Skeleton
import proofs.«136735_j54219667144895_1_alg».proof.Proof.Gen.KernelIdeal.Launch
import proofs.«136735_j54219667144895_1_alg».proof.Proof.Gen.KernelIdeal.Points
import proofs.«136735_j54219667144895_1_alg».proof.Proof.Gen.KernelIdeal.Frame
import proofs.«136735_j54219667144895_1_alg».proof.Proof.Gen.ReferenceIdeal
import proofs.«136735_j54219667144895_1_alg».proof.Proof.Gen.Pre_finite_inputs
import proofs.«136735_j54219667144895_1_alg».proof.Proof.Gen.KernelIdeal.Value
import proofs.«136735_j54219667144895_1_alg».proof.Proof.Gen.ReferenceIdeal.Run
import proofs.«136735_j54219667144895_1_alg».proof.Proof.Gen.ReferenceIdeal.Read
import proofs.«136735_j54219667144895_1_alg».proof.Proof.KernelClosedForm
import proofs.«136735_j54219667144895_1_alg».proof.Proof.ReferenceClosedForm
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's output and the reference's result are both the
    closed form of those arguments. -/
theorem algebraic : Cert.algebraic_KernelIdeal_ReferenceIdeal := by
  intro m ρ m' ρ' _ hagree
  refine ⟨_, Cert.KernelIdeal.ClosedValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.ClosedValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
